-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1x1024x1024 .f32 := Host.absf main_arg1
  let main_cst_0 : FVec F S_ .f32 := constant S_ .f32 0x7F800000#32
  let main_v5 : FVec F S32x1x1024x1024 .f32 := broadcastInDim S32x1x1024x1024 ![] bcast_S_S32x1x1024x1024 main_cst_0
  let main_v6 : IVec S32x1x1024x1024 1 := cmpf .olt main_v4 main_v5
  let main_c_1 : IVec S_ 1 := constantI S_ 1 1#1
  let main_v7 : IVec S_ 1 := (fun x v => Host.reduce IntOp.andi x v reducesTo_S32x1x1024x1024_S_d0_1_2_3 h_S_) main_v6 main_c_1
  let main_v8 : IVec S_ 1 := andi main_v3 main_v7
  main_v8
-- ==== Kernel.lean ====
abbrev S32x1x1024x1024 : Shape := ⟨4, ![32, 1, 1024, 1024]⟩
abbrev S32x1x128 : Shape := ⟨3, ![32, 1, 128]⟩
abbrev S16x1x128x1024 : Shape := ⟨4, ![16, 1, 128, 1024]⟩
abbrev S16x1x128 : Shape := ⟨3, ![16, 1, 128]⟩
abbrev S16x1 : Shape := ⟨2, ![16, 1]⟩
abbrev S16x128x1024 : Shape := ⟨3, ![16, 128, 1024]⟩
abbrev S16x1024 : Shape := ⟨2, ![16, 1024]⟩
abbrev S16x8x128 : Shape := ⟨3, ![16, 8, 128]⟩
abbrev S16x8 : Shape := ⟨2, ![16, 8]⟩
abbrev S16 : Shape := ⟨1, ![16]⟩
abbrev S16x1x1 : Shape := ⟨3, ![16, 1, 1]⟩
abbrev S32x1x1 : Shape := ⟨3, ![32, 1, 1]⟩
abbrev S32 : Shape := ⟨1, ![32]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32x1x128, .f32⟩
  | .hbm, ⟨3, _⟩ => ⟨S32x1x1, .f32⟩
  | .hbm, ⟨4, _⟩ => ⟨S32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S16x1x128x1024, .f32⟩
  | .local _ .vmem, ⟨1, _⟩ => ⟨S16x1x128x1024, .f32⟩
  | .local _ .vmem, ⟨2, _⟩ => ⟨S16x1x128x1024, .f32⟩
  | .local _ .vmem, ⟨3, _⟩ => ⟨S16x1x128x1024, .f32⟩
  | .local _ .vmem, ⟨4, _⟩ => ⟨S16x1x128, .f32⟩
  | .local _ .vmem, ⟨5, _⟩ => ⟨S16x1x128, .f32⟩
  | .local _ .vmem, ⟨6, _⟩ => ⟨S16x1, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_20 : BitVec 32 := 0#32
  let v32 : BitVec 1 := Scalar.cmpi .ne v31 c0_i32_20
  v32

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S16x1x128x1024_S16x1x128x1024_0_0_0_0 : ∀ a, (![0, 0, 0, 0] : Fin 4 → Nat) a + S16x1x128x1024.size a ≤ S16x1x128x1024.size a
  h_S16x1x128x1024 : 0 < S16x1x128x1024.numel
  shapeCasts_S16x1x128x1024_S16x128x1024 : S16x1x128x1024.ShapeCasts S16x128x1024
  reduces_S16x128x1024_S16x1024 : S16x128x1024.Reduces [1] S16x1024
  shapeCasts_S16x1024_S16x8x128 : S16x1024.ShapeCasts S16x8x128
  reduces_S16x8x128_S16x8 : S16x8x128.Reduces [2] S16x8
  reduces_S16x8_S16 : S16x8.Reduces [1] S16
  shapeCasts_S16_S16x1 : S16.ShapeCasts S16x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S16x1_S16x1x1 : S16x1.ShapeCasts S16x1x1
  shapeCasts_S16x1x1_S16x1x1 : S16x1x1.ShapeCasts S16x1x1
  broadcasts_S16x1x1_S16x1x128 : S16x1x1.Broadcasts S16x1x128
  inb_S16x1x128_S16x1x128_0_0_0 : ∀ a, (![0, 0, 0] : Fin 3 → Nat) a + S16x1x128.size a ≤ S16x1x128.size a
  h_S16x1x128 : 0 < S16x1x128.numel
  slices_S32x1x128_S32x1x1_0_0_0 : S32x1x128.Slices ![0, 0, 0] S32x1x1
  shapeCasts_S32x1x1_S32 : S32x1x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1x128x1024.size a ≤ S32x1x1024x1024.size a
  hwx0_0 : ∀ i : grid0.Coords, EltTy.bits .f32 = 32 ∨ (Rect.block (s := S32x1x1024x1024) S16x1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x128x1024.size a ≤ S32x1x1024x1024.size a
  hwx0_1 : ∀ i : grid0.Coords, EltTy.bits .f32 = 32 ∨ (Rect.block (s := S32x1x1024x1024) S16x1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x128.size a ≤ S32x1x128.size a
  hwx0_2 : ∀ i : grid0.Coords, EltTy.bits .f32 = 32 ∨ (Rect.block (s := S32x1x128) S16x1x128.size (cc0_transform_2 i) (hinb0_2 i)).WholeWords (EltTy.packing .f32)

variable [Facts₀]

abbrev win0_0 : Pipeline.Window sig grid0 :=
  Pipeline.Window.ofSpec (Memref.whole main_arg0) S16x1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x1x1024x1024 : Shape := ⟨4, ![32, 1, 1024, 1024]⟩
abbrev S32x1x8x128x8x128 : Shape := ⟨6, ![32, 1, 8, 128, 8, 128]⟩
abbrev S_ : Shape := ⟨0, ![]⟩
abbrev S32x1x8x8 : Shape := ⟨4, ![32, 1, 8, 8]⟩
abbrev S32 : Shape := ⟨1, ![32]⟩

abbrev nBuf : Space → Nat
  | .hbm => 22
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32x1x8x128x8x128, .f32⟩
  | .hbm, ⟨3, _⟩ => ⟨S_, .f32⟩
  | .hbm, ⟨4, _⟩ => ⟨S32x1x8x8, .f32⟩
  | .hbm, ⟨5, _⟩ => ⟨S_, .f32⟩
  | .hbm, ⟨6, _⟩ => ⟨S32x1x8x8, .f32⟩
  | .hbm, ⟨7, _⟩ => ⟨S32x1x8x8, .f32⟩
  | .hbm, ⟨8, _⟩ => ⟨S32x1x8x128x8x128, .f32⟩
  | .hbm, ⟨9, _⟩ => ⟨S_, .f32⟩
  | .hbm, ⟨10, _⟩ => ⟨S32x1x8x8, .f32⟩
  | .hbm, ⟨11, _⟩ => ⟨S_, .f32⟩
  | .hbm, ⟨12, _⟩ => ⟨S32x1x8x8, .f32⟩
  | .hbm, ⟨13, _⟩ => ⟨S32x1x8x8, .f32⟩
  | .hbm, ⟨14, _⟩ => ⟨S32x1x8x8, .f32⟩
  | .hbm, ⟨15, _⟩ => ⟨S32x1x8x8, .f32⟩
  | .hbm, ⟨16, _⟩ => ⟨S_, .f32⟩
  | .hbm, ⟨17, _⟩ => ⟨S32, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  shapeCasts_S32x1x1024x1024_S32x1x8x128x8x128 : S32x1x1024x1024.ShapeCasts S32x1x8x128x8x128
  reducesTo_S32x1x8x128x8x128_S32x1x8x8_d3_5 : S32x1x8x128x8x128.ReducesTo [3, 5] S32x1x8x8
  h_S_ : 0 < S_.numel
  bcast_S_S32x1x8x8 : S_.BroadcastsInDim S32x1x8x8 (![] : Fin 0 → Fin S32x1x8x8.rank)
  reducesTo_S32x1x8x8_S32_d1_2_3 : S32x1x8x8.ReducesTo [1, 2, 3] S32
  reducesTo_S32_S_d0 : S32.ReducesTo [0] S_

variable [Facts₀]

class Facts : Prop extends Facts₀ where

variable [Facts]
-- ==== Proof.ScratchPieces.lean ====
/-
  What each control case of the step leaves behind, as values.

  The step stores into the per-sample running sums (a [16, 1] scratch carried from step to step) and, at a batch
  group's last band, copies them across the lanes of the output block. At a group's first band the running sums
  are first reset to the zero block, so the step leaves "zero plus this band's loss"; at every other band it
  leaves "what the step before left plus this band's loss"; at the last band the output block is that new running
  sum, one value per sample, repeated along the 128 lanes.
-/
import proofs.«110878_j89696097010276_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A middle band: the running sums become the stored sum of the old ones and the band's loss. -/
theorem scratch_B (c : Dev nD) (i : grid0.Coords) (a2 : Memref sig .tc .vmem S16x1x128x1024 .f32) (h2 : a2.IsWhole)
    (a3 : Memref sig .tc .vmem S16x1x128x1024 .f32) (h3 : a3.IsWhole) (a4 : Memref sig .tc .vmem S16x1x128 .f32) (h4 : a4.IsWhole)
    (a5 : Memref sig .tc .vmem S16x1 .f32) (h5 : a5.IsWhole) (hc0 : ¬cond0_0 i) (hc1 : ¬cond0_1 i)
    (x0 x1 : Vec F S16x1x128x1024 .f32) (xs : Vec F S16x1 .f32) :
    sout0_B_0 c i a2 h2 a3 h3 a4 h4 a5 h5 hc0 hc1 x0 x1 xs = k0_pay3 x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz2]
  simp only [View.readAt_eq_ld, h2.read_unread, h3.read_unread, h5.read_unread,
    View.ld_unit_zero (S := S16x1x128x1024) hz4, View.ld_unit_zero (S := S16x1) hz2]

/-- A group's last band, the running sums: as at a middle band. -/
theorem scratch_C (c : Dev nD) (i : grid0.Coords) (a2 : Memref sig .tc .vmem S16x1x128x1024 .f32) (h2 : a2.IsWhole)
    (a3 : Memref sig .tc .vmem S16x1x128x1024 .f32) (h3 : a3.IsWhole) (a4 : Memref sig .tc .vmem S16x1x128 .f32) (h4 : a4.IsWhole)
    (a5 : Memref sig .tc .vmem S16x1 .f32) (h5 : a5.IsWhole) (hc0 : ¬cond0_0 i) (hc1 : cond0_1 i)
    (x0 x1 : Vec F S16x1x128x1024 .f32) (xs : Vec F S16x1 .f32) :
    sout0_C_0 c i a2 h2 a3 h3 a4 h4 a5 h5 hc0 hc1 x0 x1 xs = k0_pay3 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz2]
  simp only [View.readAt_eq_ld, h2.read_unread, h3.read_unread, h5.read_unread,
    View.ld_unit_zero (S := S16x1x128x1024) hz4, View.ld_unit_zero (S := S16x1) hz2]

/-- A group's last band, the output block: the new running sums spread along the lanes. -/
theorem out_C (c : Dev nD) (i : grid0.Coords) (a2 : Memref sig .tc .vmem S16x1x128x1024 .f32) (h2 : a2.IsWhole)
    (a3 : Memref sig .tc .vmem S16x1x128x1024 .f32) (h3 : a3.IsWhole) (a4 : Memref sig .tc .vmem S16x1x128 .f32) (h4 : a4.IsWhole)
    (a5 : Memref sig .tc .vmem S16x1 .f32) (h5 : a5.IsWhole) (hc0 : ¬cond0_0 i) (hc1 : cond0_1 i)
    (x0 x1 : Vec F S16x1x128x1024 .f32) (xs : Vec F S16x1 .f32) :
    out0_C_2 c i a2 h2 a3 h3 a4 h4 a5 h5 hc0 hc1 x0 x1 xs = k0_pay1 (k0_pay3 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz3]
  simp only [View.readCov_unit_zero (S := S16x1) _ hz2, View.readAt_eq_ld, h2.read_unread, h3.read_unread, h5.read_unread,
    View.ld_unit_zero (S := S16x1x128x1024) hz4, View.ld_unit_zero (S := S16x1) hz2]

/-- A group's first band: the running sums are reset to the zero block and then take the band's loss. -/
theorem scratch_A (c : Dev nD) (i : grid0.Coords) (a2 : Memref sig .tc .vmem S16x1x128x1024 .f32) (h2 : a2.IsWhole)
    (a3 : Memref sig .tc .vmem S16x1x128x1024 .f32) (h3 : a3.IsWhole) (a4 : Memref sig .tc .vmem S16x1x128 .f32) (h4 : a4.IsWhole)
    (a5 : Memref sig .tc .vmem S16x1 .f32) (h5 : a5.IsWhole) (hc0 : cond0_0 i) (hc1 : ¬cond0_1 i)
    (x0 x1 : Vec F S16x1x128x1024 .f32) :
    sout0_A_0 c i a2 h2 a3 h3 a4 h4 a5 h5 hc0 hc1 x0 x1 = k0_pay3 x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S16x1) hz2, View.readCov_unit_zero (S := S16x1) _ hz2]
  simp only [View.readAt_eq_ld, h2.read_unread, h3.read_unread,
    View.ld_unit_zero (S := S16x1x128x1024) hz4, View.ld_unit_zero (S := S16x1) hz2]

end Cert.KernelIdeal.Pieces

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.BandPayload.lean ====
/-
  What one grid step adds to the running per-sample sums, read at a sample.

  The step holds a band of 128 image rows of 16 samples for each image: a block over [16, 1, 128, 1024]. For sample
  `b` and column group `g` the kernel forms, per image, the band's contribution to window mean `g`: the sums down the
  128 rows, scaled by the word of 1/128, summed along the group's 128 columns, scaled again. It adds to the running
  sum of sample `b` the sum over the eight groups of the absolute difference of the two images' means.
-/
import proofs.«110878_j89696097010276_1_alg».proof.Proof.Gen.KernelIdeal.Skeleton
import proofs.«110878_j89696097010276_1_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.Band

open Cert.KernelIdeal Cert.KernelIdeal.Gen Idealize.ShloMosaic Idealize.ShloMosaic.ValueIdx

/-- Column `128 g + cl` of a 1024-column row: column `cl` of group `g`. -/
def col (g : Fin 8) (cl : Fin 128) : Fin 1024 := ⟨128 * g.val + cl.val, by omega⟩

/-- The band's contribution to window mean `g` of sample `b`, for one image's block. -/
def bandMean (x : Vec Ideal S16x1x128x1024 .f32) (b : Fin 16) (g : Fin 8) : EReal :=
  (∑ cl : Fin 128, (∑ r : Fin 128, x (ix4 b (0 : Fin 1) r (col g cl))) * Ideal.ofBits .f32 0x3C000000#32)
    * Ideal.ofBits .f32 0x3C000000#32

/-- The band's contribution to sample `b`'s loss. -/
def bandLoss (x0 x1 : Vec Ideal S16x1x128x1024 .f32) (b : Fin 16) : EReal :=
  ∑ g : Fin 8, max (bandMean x0 b g - bandMean x1 b g) (-(bandMean x0 b g - bandMean x1 b g))

/-- The block with its unit channel axis dropped reads (b, r, c) at (b, 0, r, c). -/
theorem dropChannel_apply (x : Vec Ideal S16x1x128x1024 .f32) (b : Fin 16) (r : Fin 128) (c : Fin 1024) :
    shapeCast S16x128x1024 x shapeCasts_S16x1x128x1024_S16x128x1024 (ix3 b r c) = x (ix4 b (0 : Fin 1) r c) :=
  shapeCast_apply x _ _ _ (by
    rw [Shape.rowMajor_val_four, Shape.rowMajor_val_three]
    show ((b.val * 1 + 0) * 128 + r.val) * 1024 + c.val = (b.val * 128 + r.val) * 1024 + c.val
    omega)

/-- A 1024-column row regrouped into 8 groups of 128 reads (b, g, cl) at column 128 g + cl. -/
theorem regroup_apply (v : FVec Ideal S16x1024 .f32) (b : Fin 16) (g : Fin 8) (cl : Fin 128) :
    shapeCast S16x8x128 v shapeCasts_S16x1024_S16x8x128 (ix3 b g cl) = v (ix2 b (col g cl)) :=
  shapeCast_apply v _ _ _ (by
    rw [Shape.rowMajor_val_two, Shape.rowMajor_val_three]
    show b.val * 1024 + (128 * g.val + cl.val) = (b.val * 8 + g.val) * 128 + cl.val
    omega)

/-- The sum down the band's rows, at sample `b` and column `c`. -/
theorem rowSum_apply (v : FVec Ideal S16x128x1024 .f32) (b : Fin 16) (c : Fin 1024) :
    multiReduction .add [1] S16x1024 v 0x00000000#32 reduces_S16x128x1024_S16x1024 (.inl rfl) rfl (ix2 b c)
      = ∑ r : Fin 128, v (ix3 b r c) := by
  refine (Ideal.multiReduction_add_single v _ reduces_S16x128x1024_S16x1024 _ _ (ix2 b c)).trans ?_
  refine Finset.sum_congr rfl fun r _ => ?_
  refine congrArg v (funext fun ax => Fin.ext ?_)
  rw [Shape.Reduces.lift_val]
  match ax with
  | ⟨0, _⟩ => rfl
  | ⟨1, _⟩ => rfl
  | ⟨2, _⟩ => rfl

/-- The sum along a group's columns, at sample `b` and group `g`. -/
theorem groupSum_apply (v : FVec Ideal S16x8x128 .f32) (b : Fin 16) (g : Fin 8) :
    multiReduction .add [2] S16x8 v 0x00000000#32 reduces_S16x8x128_S16x8 (.inl rfl) rfl (ix2 b g)
      = ∑ cl : Fin 128, v (ix3 b g cl) := by
  refine (Ideal.multiReduction_add_single v _ reduces_S16x8x128_S16x8 _ _ (ix2 b g)).trans ?_
  refine Finset.sum_congr rfl fun cl _ => ?_
  refine congrArg v (funext fun ax => Fin.ext ?_)
  rw [Shape.Reduces.lift_val]
  match ax with
  | ⟨0, _⟩ => rfl
  | ⟨1, _⟩ => rfl
  | ⟨2, _⟩ => rfl

/-- One image's scaled group sums are the band's contribution to the window means. -/
theorem bandMean_eq (x : Vec Ideal S16x1x128x1024 .f32) (b : Fin 16) (g : Fin 8) :
    mulf (multiReduction .add [2] S16x8 (shapeCast S16x8x128 (mulf (multiReduction .add [1] S16x1024
        (shapeCast S16x128x1024 x shapeCasts_S16x1x128x1024_S16x128x1024) 0x00000000#32 reduces_S16x128x1024_S16x1024 (.inl rfl) rfl)
        (broadcast S16x1024 (Scalar.ofBits (F := Ideal) .f32 0x3C000000#32))) shapeCasts_S16x1024_S16x8x128) 0x00000000#32 reduces_S16x8x128_S16x8 (.inl rfl) rfl)
      (broadcast S16x8 (Scalar.ofBits (F := Ideal) .f32 0x3C000000#32)) (ix2 b g) = bandMean x b g := by
  rw [mulf_apply, groupSum_apply]
  unfold bandMean
  refine congrArg₂ (· * ·) (Finset.sum_congr rfl fun cl _ => ?_) rfl
  rw [regroup_apply, mulf_apply, rowSum_apply]
  refine congrArg₂ (· * ·) (Finset.sum_congr rfl fun r _ => ?_) rfl
  exact dropChannel_apply x b r (col g cl)

/-- The step's store into the running sums, at sample `b`: what was there plus the band's loss. -/
theorem pay3_apply (x0 x1 : Vec Ideal S16x1x128x1024 .f32) (acc : Vec Ideal S16x1 .f32) (b : Fin 16) (u : Fin 1) :
    k0_pay3 (F := Ideal) x0 x1 acc (ix2 b u) = acc (ix2 b u) + bandLoss x0 x1 b := by
  unfold k0_pay3
  dsimp only
  rw [shapeCast_self, addf_apply, Keepdims.shapeCast_a_a1_apply]
  refine congrArg (acc (ix2 b u) + ·) ?_
  refine (Keepdims.laneSum_apply _ _ reduces_S16x8_S16 _ _ b).trans ?_
  unfold bandLoss
  refine Finset.sum_congr rfl fun g _ => ?_
  exact congrArg₂ (fun p q : EReal => max (p - q) (-(p - q))) (bandMean_eq x0 b g) (bandMean_eq x1 b g)

end Cert.KernelIdeal.Band

end
-- ==== Proof.Dyadic.lean ====
/-
  The three float constants whose VALUES the comparison needs, as the extended reals their patterns denote:
  the zero every sum starts from, the kernel's factor 2⁻⁷ = 1/128 (applied twice, once per pooled axis), and the
  reference's divisor 2¹⁴ = 16384 = 128 · 128 (applied once to the sum over a whole 128 × 128 window).
-/
import Idealize.ShloMosaic.PureOps.Ideal

noncomputable section

namespace Cert.Dyadic

open Idealize.ShloMosaic

/-- The pattern of +0.0 denotes 0. -/
theorem zero : Ideal.ofBits .f32 0x00000000#32 = 0 := by
  simp [Ideal.ofBits, Ideal.ieee]

/-- The pattern 0x3C000000 (exponent field 120, no fraction bits) denotes 2⁻⁷ = 1/128. -/
theorem inv128 : Ideal.ofBits .f32 0x3C000000#32 = ((1 / 128 : ℝ) : EReal) := by
  simp [Ideal.ofBits, Ideal.ieee, -EReal.coe_mul]; norm_num

/-- The pattern 0x46800000 (exponent field 141, no fraction bits) denotes 2¹⁴ = 16384. -/
theorem pow14 : Ideal.ofBits .f32 0x46800000#32 = ((16384 : ℝ) : EReal) := by
  simp [Ideal.ofBits, Ideal.ieee, -EReal.coe_mul]; norm_num

end Cert.Dyadic

end
-- ==== Proof.BoxMean.lean ====
/-
  The mathematics of the comparison, free of both programs.

  An image batch is an array over [32, 1, 1024, 1024]. Sample `b`'s thumbnail has 8 × 8 entries; entry (h, w) is the
  mean of the 128 × 128 window of pixels (128h + r, 128w + cl). The kernel takes that mean in two steps — the sum
  down the window's 128 rows times 1/128, then the sum of those along the window's 128 columns times 1/128 — and
  the reference in one: the sum over the whole window divided by 16384. A sample's loss is the sum over the 64
  windows of the absolute difference of the two images' means.

  Over the extended reals a factor moves across a sum only when nothing is infinite, so the two means agree on
  arrays whose entries are all real (`twoStep_eq_oneStep`), and with them the two losses (`twoStepLoss_eq_oneStepLoss`).
-/
import Idealize.ShloMosaic.PureOps.Ideal
import Idealize.ShloMosaic.Lib.ValueIdx
import proofs.«110878_j89696097010276_1_alg».proof.Proof.Dyadic

noncomputable section

open scoped BigOperators

namespace Cert.BoxMean

open Idealize.ShloMosaic Idealize.ShloMosaic.ValueIdx

/-- The image batch's shape. -/
abbrev Img : Shape := ⟨4, ![32, 1, 1024, 1024]⟩

/-- Pixel (128h + r, 128w + cl) of sample `b`: row `r`, column `cl` of window (h, w). -/
def px (b : Fin 32) (h : Fin 8) (r : Fin 128) (w : Fin 8) (cl : Fin 128) : Img.Idx :=
  ix4 b (0 : Fin 1) ⟨128 * h.val + r.val, by omega⟩ ⟨128 * w.val + cl.val, by omega⟩

/-- The window mean as the kernel takes it: column sums over the rows scaled by the word of 1/128, summed along
    the columns, scaled again. -/
def twoStep (X : Img.Idx → EReal) (b : Fin 32) (h w : Fin 8) : EReal :=
  (∑ cl : Fin 128, (∑ r : Fin 128, X (px b h r w cl)) * Ideal.ofBits .f32 0x3C000000#32) * Ideal.ofBits .f32 0x3C000000#32

/-- The window mean as the reference takes it: the sum over the window from the zero word, divided by the word
    of 16384. -/
def oneStep (X : Img.Idx → EReal) (b : Fin 32) (h w : Fin 8) : EReal :=
  Ideal.div (Ideal.ofBits .f32 0x00000000#32 + ∑ r : Fin 128, ∑ cl : Fin 128, X (px b h r w cl)) (Ideal.ofBits .f32 0x46800000#32)

/-- Sample `b`'s loss over the kernel's means: band by band (h), window by window (w). -/
def twoStepLoss (X Y : Img.Idx → EReal) (b : Fin 32) : EReal :=
  ∑ h : Fin 8, ∑ w : Fin 8, max (twoStep X b h w - twoStep Y b h w) (-(twoStep X b h w - twoStep Y b h w))

/-- Sample `b`'s loss over the reference's means, summed from the zero word. -/
def oneStepLoss (X Y : Img.Idx → EReal) (b : Fin 32) : EReal :=
  Ideal.ofBits .f32 0x00000000#32
    + ∑ h : Fin 8, ∑ w : Fin 8, max (oneStep X b h w - oneStep Y b h w) (-(oneStep X b h w - oneStep Y b h w))

/-- A finite sum of reals, taken in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- On an array of reals the two-step mean is the one-step mean: both are the window's sum over 16384. -/
theorem twoStep_eq_oneStep (X : Img.Idx → EReal) (hX : ∀ i, ∃ x : ℝ, X i = (x : EReal)) (b : Fin 32) (h w : Fin 8) :
    twoStep X b h w = oneStep X b h w := by
  choose x hx using hX
  unfold twoStep oneStep
  rw [Cert.Dyadic.inv128, Cert.Dyadic.zero, Cert.Dyadic.pow14, Ideal.div_coe (by norm_num : (16384 : ℝ) ≠ 0), zero_add]
  simp only [hx, coe_sum, ← EReal.coe_mul]
  rw [Finset.sum_comm]
  congr 1
  rw [← Finset.sum_mul, mul_assoc]
  norm_num

/-- So on arrays of reals the two losses agree. -/
theorem twoStepLoss_eq_oneStepLoss (X Y : Img.Idx → EReal) (hX : ∀ i, ∃ x : ℝ, X i = (x : EReal))
    (hY : ∀ i, ∃ y : ℝ, Y i = (y : EReal)) (b : Fin 32) : twoStepLoss X Y b = oneStepLoss X Y b := by
  unfold twoStepLoss oneStepLoss
  rw [Cert.Dyadic.zero, zero_add]
  simp only [twoStep_eq_oneStep X hX, twoStep_eq_oneStep Y hY]

end Cert.BoxMean

end
-- ==== Proof.RunningSum.lean ====
/-
  The kernel's output array, as one function of the two images.

  Grid point t = 8·(batch group) + (band) handles samples 16·(t / 8) + b, b < 16, and image rows 128·(t % 8) + r,
  r < 128. The running per-sample sums held between points are, after point t, the sum over the bands up to
  t % 8 of the band losses; this is shown by induction on the point. At a group's last band the sums, now over
  all eight bands, are written to the output block of the group, one value per sample repeated along the lanes;
  the two groups' blocks tile the output array, so the array is sample b's two-step loss at every (b, 0, lane).
-/
import proofs.«110878_j89696097010276_1_alg».proof.Proof.Gen.KernelIdeal.Frame
import proofs.«110878_j89696097010276_1_alg».proof.Proof.ScratchPieces
import proofs.«110878_j89696097010276_1_alg».proof.Proof.BandPayload
import proofs.«110878_j89696097010276_1_alg».proof.Proof.BoxMean
import Idealize.ShloMosaic.Lib.Pipeline.Value
import Idealize.ShloMosaic.Lib.ValueIdx

noncomputable section

open scoped BigOperators

namespace Cert.KernelIdeal.Running

open Cert.KernelIdeal Cert.KernelIdeal.Gen Idealize.ShloMosaic Idealize.ShloMosaic.TcCoe Idealize.SL.Sem
open Idealize.ShloMosaic.ValueIdx
open Idealize.ShloMosaic.Pipeline (Dat)
open Cert.BoxMean Cert.KernelIdeal.Band

variable (m : (ℓ : Loc nD τ sig) → Buf (Elt Ideal) ℓ)

/-- The two images as the region finds them, and their blocks at a point, at their literal types. -/
abbrev xarr (c : Dev nD) : Vec Ideal S32x1x1024x1024 .f32 := V m c main_arg0
abbrev yarr (c : Dev nD) : Vec Ideal S32x1x1024x1024 .f32 := V m c main_arg1
abbrev xblk (c : Dev nD) (t : Fin cfg0.N) : Vec Ideal S16x1x128x1024 .f32 := iblk m c 0 t
abbrev yblk (c : Dev nD) (t : Fin cfg0.N) : Vec Ideal S16x1x128x1024 .f32 := iblk m c 1 t

theorem lt16 (t : Fin cfg0.N) : t.val < 16 := lt_of_lt_of_eq t.isLt (show cfg0.N = 16 from N_0)

/-- The band a point handles, and the sample its row `b` is. -/
def band (t : Fin cfg0.N) : Fin 8 := ⟨t.val % 8, Nat.mod_lt _ (by decide)⟩
def smp (t : Fin cfg0.N) (b : Fin 16) : Fin 32 := ⟨16 * (t.val / 8) + b.val, by have := lt16 t; omega⟩

/-- Where the two input windows' blocks sit: block index (t / 8, 0, t % 8, 0). -/
theorem idx_x : ∀ t : Fin cfg0.N, win0_0.index t 0 = t.val / 8 ∧ win0_0.index t 1 = 0 ∧ win0_0.index t 2 = t.val % 8 ∧ win0_0.index t 3 = 0 :=
  (by decide +kernel : ∀ t : Fin grid0.N, win0_0.index t 0 = t.val / 8 ∧ win0_0.index t 1 = 0 ∧ win0_0.index t 2 = t.val % 8 ∧ win0_0.index t 3 = 0)
theorem idx_y : ∀ t : Fin cfg0.N, win0_1.index t 0 = t.val / 8 ∧ win0_1.index t 1 = 0 ∧ win0_1.index t 2 = t.val % 8 ∧ win0_1.index t 3 = 0 :=
  (by decide +kernel : ∀ t : Fin grid0.N, win0_1.index t 0 = t.val / 8 ∧ win0_1.index t 1 = 0 ∧ win0_1.index t 2 = t.val % 8 ∧ win0_1.index t 3 = 0)

/-- The first image's block at point t reads row r, column cc of sample-row b at the image's pixel
    (128 (t % 8) + r, cc) of sample 16 (t / 8) + b. -/
theorem xblk_apply (c : Dev nD) (t : Fin cfg0.N) (b : Fin 16) (r : Fin 128) (w : Fin 8) (cl : Fin 128) :
    xblk m c t (ix4 b (0 : Fin 1) r (col w cl)) = xarr m c (px (smp t b) (band t) r w cl) := by
  obtain ⟨h0, h1, h2, h3⟩ := idx_x t
  unfold xblk iblk
  rw [View.read_apply]
  show V m c main_arg0 _ = V m c main_arg0 _
  congr 1
  funext a
  apply Fin.ext
  match a with
  | ⟨0, _⟩ => show win0_0.index t 0 * 16 + 1 * b.val = 16 * (t.val / 8) + b.val; rw [h0]; omega
  | ⟨1, _⟩ => show win0_0.index t 1 * 1 + 1 * 0 = 0; rw [h1]
  | ⟨2, _⟩ => show win0_0.index t 2 * 128 + 1 * r.val = 128 * (t.val % 8) + r.val; rw [h2]; omega
  | ⟨3, _⟩ => show win0_0.index t 3 * 1024 + 1 * (128 * w.val + cl.val) = 128 * w.val + cl.val; rw [h3]; omega

theorem yblk_apply (c : Dev nD) (t : Fin cfg0.N) (b : Fin 16) (r : Fin 128) (w : Fin 8) (cl : Fin 128) :
    yblk m c t (ix4 b (0 : Fin 1) r (col w cl)) = yarr m c (px (smp t b) (band t) r w cl) := by
  obtain ⟨h0, h1, h2, h3⟩ := idx_y t
  unfold yblk iblk
  rw [View.read_apply]
  show V m c main_arg1 _ = V m c main_arg1 _
  congr 1
  funext a
  apply Fin.ext
  match a with
  | ⟨0, _⟩ => show win0_1.index t 0 * 16 + 1 * b.val = 16 * (t.val / 8) + b.val; rw [h0]; omega
  | ⟨1, _⟩ => show win0_1.index t 1 * 1 + 1 * 0 = 0; rw [h1]
  | ⟨2, _⟩ => show win0_1.index t 2 * 128 + 1 * r.val = 128 * (t.val % 8) + r.val; rw [h2]; omega
  | ⟨3, _⟩ => show win0_1.index t 3 * 1024 + 1 * (128 * w.val + cl.val) = 128 * w.val + cl.val; rw [h3]; omega

/-! ### A point's band loss, in terms of the images -/

/-- The loss of band h of sample B: the eight windows' absolute differences of two-step means. -/
def bandTerm (X Y : Img.Idx → EReal) (B : Fin 32) (h : Fin 8) : EReal :=
  ∑ w : Fin 8, max (twoStep X B h w - twoStep Y B h w) (-(twoStep X B h w - twoStep Y B h w))

theorem twoStepLoss_eq (X Y : Img.Idx → EReal) (B : Fin 32) : twoStepLoss X Y B = ∑ h : Fin 8, bandTerm X Y B h := rfl

theorem bandMean_x (c : Dev nD) (t : Fin cfg0.N) (b : Fin 16) (w : Fin 8) :
    bandMean (xblk m c t) b w = twoStep (xarr m c) (smp t b) (band t) w := by
  unfold bandMean twoStep
  refine congrArg₂ (· * ·) (Finset.sum_congr rfl fun cl _ => congrArg₂ (· * ·) (Finset.sum_congr rfl fun r _ => ?_) rfl) rfl
  exact xblk_apply m c t b r w cl

theorem bandMean_y (c : Dev nD) (t : Fin cfg0.N) (b : Fin 16) (w : Fin 8) :
    bandMean (yblk m c t) b w = twoStep (yarr m c) (smp t b) (band t) w := by
  unfold bandMean twoStep
  refine congrArg₂ (· * ·) (Finset.sum_congr rfl fun cl _ => congrArg₂ (· * ·) (Finset.sum_congr rfl fun r _ => ?_) rfl) rfl
  exact yblk_apply m c t b r w cl

/-- What point t adds to sample-row b's running sum is the loss of band t % 8 of sample 16 (t / 8) + b. -/
theorem bandLoss_blk (c : Dev nD) (t : Fin cfg0.N) (b : Fin 16) :
    bandLoss (xblk m c t) (yblk m c t) b = bandTerm (xarr m c) (yarr m c) (smp t b) (band t) := by
  unfold bandLoss bandTerm
  refine Finset.sum_congr rfl fun w _ => ?_
  rw [bandMean_x, bandMean_y]

/-! ### The running sums over the bands up to a given one -/

/-- The sum of sample B's band losses over the bands h ≤ n. -/
def upTo (X Y : Img.Idx → EReal) (B : Fin 32) (n : ℕ) : EReal :=
  ∑ h ∈ Finset.univ.filter (fun h : Fin 8 => h.val ≤ n), bandTerm X Y B h

theorem upTo_zero (X Y : Img.Idx → EReal) (B : Fin 32) : upTo X Y B 0 = bandTerm X Y B 0 := by
  unfold upTo
  rw [show Finset.univ.filter (fun h : Fin 8 => h.val ≤ 0) = {0} from by
    ext h; simp only [Finset.mem_filter, Finset.mem_univ, true_and, Finset.mem_singleton, Fin.ext_iff]; simp]
  exact Finset.sum_singleton _ _

theorem upTo_succ (X Y : Img.Idx → EReal) (B : Fin 32) (n : ℕ) (hn : n + 1 < 8) :
    upTo X Y B (n + 1) = upTo X Y B n + bandTerm X Y B ⟨n + 1, hn⟩ := by
  unfold upTo
  rw [show Finset.univ.filter (fun h : Fin 8 => h.val ≤ n + 1)
      = insert (⟨n + 1, hn⟩ : Fin 8) (Finset.univ.filter (fun h : Fin 8 => h.val ≤ n)) from by
    ext h; simp only [Finset.mem_filter, Finset.mem_univ, true_and, Finset.mem_insert, Fin.ext_iff]; omega]
  rw [Finset.sum_insert (by simp), add_comm]

theorem upTo_seven (X Y : Img.Idx → EReal) (B : Fin 32) : upTo X Y B 7 = twoStepLoss X Y B := by
  unfold upTo
  rw [Finset.filter_true_of_mem (fun h _ => by have := h.isLt; omega)]
  rfl

/-! ### The running sums after each point -/

/-- The zero block the reset stores reads the zero word. -/
theorem pay2_apply (i : S16x1.Idx) : k0_pay2 (F := Ideal) i = Ideal.ofBits .f32 0x00000000#32 := by
  unfold k0_pay2
  rw [shapeCast_self]
  rfl

/-- At a group's first band: zero plus the band's loss. -/
theorem first_band (c : Dev nD) (t : Fin cfg0.N) (h0 : t.val % 8 = 0) (h1 : ¬t.val % 8 = 7) (b : Fin 16) (u : Fin 1) :
    (outsAt0 m c t.val t.isLt).2 (ix2 b u) = upTo (xarr m c) (yarr m c) (smp t b) (t.val % 8) := by
  rw [outsAt0_A m c t h0 h1]
  refine (congrFun (Pieces.scratch_A (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (iblk m c 0 t) (iblk m c 1 t)) (ix2 b u)).trans ?_
  refine (pay3_apply (xblk m c t) (yblk m c t) (k0_pay2 (F := Ideal)) b u).trans ?_
  rw [pay2_apply, Cert.Dyadic.zero, zero_add, bandLoss_blk, h0, upTo_zero]
  exact congrArg _ (Fin.ext h0)

/-- At any later band: what the point before left plus the band's loss. -/
theorem later_band (c : Dev nD) (t : Fin cfg0.N) (h0 : ¬t.val % 8 = 0) (b : Fin 16) (u : Fin 1) :
    (outsAt0 m c t.val t.isLt).2 (ix2 b u)
      = (outsAt0 m c (t.val - 1) (Nat.lt_of_le_of_lt (Nat.sub_le _ _) t.isLt)).2 (ix2 b u)
        + bandTerm (xarr m c) (yarr m c) (smp t b) (band t) := by
  by_cases h1 : t.val % 8 = 7
  · rw [outsAt0_C m c t h0 h1]
    refine (congrFun (Pieces.scratch_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) (ix2 b u)).trans ?_
    refine (pay3_apply (xblk m c t) (yblk m c t) (outsAt0 m c (t.val - 1) (Nat.lt_of_le_of_lt (Nat.sub_le _ _) t.isLt)).2 b u).trans ?_
    rw [bandLoss_blk]
  · rw [outsAt0_B m c t h0 h1]
    refine (congrFun (Pieces.scratch_B (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2) (ix2 b u)).trans ?_
    refine (pay3_apply (xblk m c t) (yblk m c t) (outsAt0 m c (t.val - 1) (Nat.lt_of_le_of_lt (Nat.sub_le _ _) t.isLt)).2 b u).trans ?_
    rw [bandLoss_blk]

/-- After point n the running sum of sample-row b is the sum of the band losses over the bands up to n % 8
    of sample 16 (n / 8) + b: by induction on the point. -/
theorem running (c : Dev nD) : ∀ (n : ℕ) (hn : n < cfg0.N) (b : Fin 16) (u : Fin 1),
    (outsAt0 m c n hn).2 (ix2 b u) = upTo (xarr m c) (yarr m c) (smp ⟨n, hn⟩ b) (n % 8) := by
  intro n
  induction n with
  | zero => intro hn b u; exact first_band m c ⟨0, hn⟩ rfl (by show ¬0 % 8 = 7; decide) b u
  | succ n ih =>
    intro hn b u
    have hN : n + 1 < 16 := lt16 ⟨n + 1, hn⟩
    by_cases h0 : (n + 1) % 8 = 0
    · exact first_band m c ⟨n + 1, hn⟩ h0 (by show ¬(n + 1) % 8 = 7; omega) b u
    · refine (later_band m c ⟨n + 1, hn⟩ h0 b u).trans ?_
      show (outsAt0 m c n (Nat.lt_of_succ_lt hn)).2 (ix2 b u) + _ = _
      rw [ih (Nat.lt_of_succ_lt hn) b u]
      have e1 : smp ⟨n, Nat.lt_of_succ_lt hn⟩ b = smp ⟨n + 1, hn⟩ b := Fin.ext (by
        show 16 * (n / 8) + b.val = 16 * ((n + 1) / 8) + b.val
        omega)
      have e2 : (n + 1) % 8 = n % 8 + 1 := by omega
      rw [e1, e2, upTo_succ _ _ _ _ (by omega)]
      exact congrArg (upTo _ _ _ _ + bandTerm _ _ _ ·) (Fin.ext e2)

/-! ### The output array -/

/-- The column of sums spread along 128 lanes reads, at (b, ch, lane), the sum of row b. -/
theorem pay1_apply (v : Vec Ideal S16x1 .f32) (b : Fin 16) (ch : Fin 1) (l : Fin 128) :
    k0_pay1 (F := Ideal) v (ix3 b ch l) = v (ix2 b (0 : Fin 1)) := by
  unfold k0_pay1
  refine (broadcastTo_apply _ broadcasts_S16x1x1_S16x1x128 (ix3 b ch l) (ix3 b (0 : Fin 1) (0 : Fin 1)) fun a => ?_).trans ?_
  · match a with
    | ⟨0, _⟩ => rfl
    | ⟨1, _⟩ => rfl
    | ⟨2, _⟩ => rfl
  · rw [shapeCast_self]
    exact shapeCast_apply v _ _ _ (by
      rw [Shape.rowMajor_val_two, Shape.rowMajor_val_three]
      show b.val * 1 + 0 = (b.val * 1 + 0) * 1 + 0
      omega)

/-- The output array the kernel ends with: sample b's two-step loss at every (b, 0, lane). -/
def outArr (c : Dev nD) : Vec Ideal S32x1x128 .f32 := fun i => twoStepLoss (xarr m c) (yarr m c) (i 0)

/-- Where the output window's block sits: block index (t / 8, 0, 0). -/
theorem idx_o : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- What a group's last band writes back is the group's block of that array. -/
theorem flushed_eq (c : Dev nD) (t : Fin cfg0.N) (hf : (cfg0.win 2).flush t = true) :
    (dats m 0 c).flushed 2 t = ((cfg0.win 2).blk t).view.read (Elt Ideal) (outArr m c) := by
  have h1 : t.val % 8 = 7 := (flush0_2 t).mp hf
  have h0 : ¬t.val % 8 = 0 := by omega
  obtain ⟨i0, i1, i2⟩ := idx_o t
  have key : (outsAt0 m c t.val t.isLt).1
      = fun j : S16x1x128.Idx => twoStepLoss (xarr m c) (yarr m c) (smp t (j 0)) := by
    funext j
    obtain ⟨b, ch, l, rfl⟩ : ∃ (b : Fin 16) (ch : Fin 1) (l : Fin 128), j = ix3 b ch l := ⟨j 0, j 1, j 2, eq_ix3 j⟩
    have hr := running m c t.val t.isLt b (0 : Fin 1)
    rw [outsAt0_C m c t h0 h1] at hr ⊢
    have hs := congrFun (Pieces.scratch_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) (ix2 b (0 : Fin 1))
    refine (congrFun (Pieces.out_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) (ix3 b ch l)).trans ?_
    refine (pay1_apply _ b ch l).trans ?_
    refine (hs.symm.trans hr).trans ?_
    rw [h1]
    exact upTo_seven _ _ _
  show (cfg0.win 2).cut (grid0.coords t) ((dats m 0 c).after 2 t) = _
  rw [after0_2, key]
  funext y
  show twoStepLoss (xarr m c) (yarr m c) (smp t ⟨(y 0).val, _⟩) = twoStepLoss (xarr m c) (yarr m c) ((((cfg0.win 2).blk t).view.emb y) 0)
  refine congrArg _ (Fin.ext ?_)
  show 16 * (t.val / 8) + (y 0).val = win0_2.index t 0 * 16 + 1 * (y 0).val
  rw [i0]
  omega

/-- The two groups' blocks tile the output array. -/
theorem cover (i : S32x1x128.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 128 := (i 2).isLt
  obtain ⟨t, ht⟩ : ∃ t : Fin cfg0.N, t.val = 8 * ((i 0).val / 16) + 7 :=
    ⟨⟨8 * ((i 0).val / 16) + 7, by rw [show cfg0.N = 16 from N_0]; omega⟩, rfl⟩
  obtain ⟨e0, e1, e2⟩ := idx_o t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t 0 * 16 ≤ (i 0).val ∧ (i 0).val < win0_2.index t 0 * 16 + 16
    rw [e0]; omega
  | ⟨1, _⟩ =>
    show win0_2.index t 1 * 1 ≤ (i 1).val ∧ (i 1).val < win0_2.index t 1 * 1 + 1
    rw [e1]; omega
  | ⟨2, _⟩ =>
    show win0_2.index t 2 * 128 ≤ (i 2).val ∧ (i 2).val < win0_2.index t 2 * 128 + 128
    rw [e2]; omega

/-- So the output array ends holding every sample's two-step loss along its lanes. -/
theorem final_o (c : Dev nD) : (dats m 0 c).arrAt 2 cfg0.N = outArr m c :=
  (dats m 0 c).arrAt_eq_of_cover 2 (outArr m c) (flushed_eq m c) cover

end Cert.KernelIdeal.Running

end
-- ==== Proof.KernelResult.lean ====
/-
  The kernel program's result, as one function of the two images.

  After the region the program keeps lane 0 of every sample's row of the output array, sums the 32 values from the
  zero word and divides by the word of 32. The region's array is every sample's two-step loss along its lanes, so
  the kept vector is the vector of two-step losses, and the result is the closing sum and quotient of that vector.
-/
import proofs.«110878_j89696097010276_1_alg».proof.Proof.RunningSum
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)
open Cert.BoxMean Cert.KernelIdeal.Running

variable (m : (ℓ : Loc nD τ sig) → Buf (Elt Ideal) ℓ) (ρ : Dev nD → PrngReg)

/-- The closing steps both programs share: the sum of a 32-vector from the zero word, over the word of 32. -/
def closing (v : FVec Ideal S32 .f32) : FVec Ideal S_ .f32 :=
  Host.divf (Host.reduceAdd v (constant S_ .f32 0x00000000#32) reducesTo_S32_S_d0 h_S_) (constant S_ .f32 0x42000000#32)

/-- Lane 0 of every sample's row of an output array, as a 32-vector. -/
def lane0 (o : Vec Ideal S32x1x128 .f32) : FVec Ideal S32 .f32 :=
  shapeCast S32 (extractStridedSlice S32x1x1 ![0, 0, 0] o slices_S32x1x128_S32x1x1_0_0_0) shapeCasts_S32x1x1_S32

/-- Lane 0 of the region's array at sample b is sample b's two-step loss. -/
theorem lane0_apply (c : Dev nD) (b : Fin 32) :
    lane0 (outArr m c) (ix1 b) = twoStepLoss (xarr m c) (yarr m c) b := by
  unfold lane0
  refine (shapeCast_apply _ shapeCasts_S32x1x1_S32 (ix1 b) (ix3 b (0 : Fin 1) (0 : Fin 1)) (by
    rw [Shape.rowMajor_val_three, Shape.rowMajor_val_one]
    show (b.val * 1 + 0) * 1 + 0 = b.val
    omega)).trans ?_
  refine (extractStridedSlice_apply _ _ slices_S32x1x128_S32x1x1_0_0_0 (ix3 b (0 : Fin 1) (0 : Fin 1)) (ix3 b (0 : Fin 1) (0 : Fin 128)) fun a => ?_).trans ?_
  · match a with
    | ⟨0, _⟩ => show b.val = 0 + b.val; omega
    | ⟨1, _⟩ => rfl
    | ⟨2, _⟩ => rfl
  · rfl

/-- The program's result after the region's array: the closing steps on lane 0 of the array. -/
theorem tail_eq (c : Dev nD) :
    Pipeline.afterTail₀ cfgs (dats m) 0 (V0 m) [hostOps1] c main_v4 = closing (lane0 (outArr m c)) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v0)
      = outArr m c from (Pipeline.withArrays_arr spec0 launch0.win.arr_inj c _ _ 2).trans (final_o m c)]
  rfl

/-- The kernel program's run, read: the result at the closing steps on the vector of two-step losses, the images unchanged. -/
theorem run : θ_run defs (onTc (τ := τ) (main (F := Ideal))) ⟨m, fun _ => 0, ρ⟩ fun r => ∀ c : Dev nD,
      r.2.mem ((c.tc : Thread nD τ).loc main_v4) = closing (lane0 (outArr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v4 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.ReferenceSample.lean ====
/-
  The reference's per-sample loss, read at a sample.

  The reference regroups each image [32, 1, 1024, 1024] as [32, 1, 8, 128, 8, 128] — (b, ch, h, r, w, cl) is pixel
  (128h + r, 128w + cl) of sample b —, sums over (r, cl) from the zero word, divides by the word of 16384, takes
  the absolute difference of the two images' results and sums it over (ch, h, w) from the zero word. A sum over
  several axes is the sum over the indices that agree with the result index on the kept axes; those are listed
  here by the coordinates on the summed axes, which turns each into an iterated sum over coordinates.
-/
import proofs.«110878_j89696097010276_1_alg».proof.Proof.Gen.ReferenceIdeal.Read
import proofs.«110878_j89696097010276_1_alg».proof.Proof.BoxMean
import Idealize.ShloMosaic.Lib.Pipeline.Value
import Idealize.ShloMosaic.Lib.ValueIdx
import Idealize.ShloMosaic.Lib.IdealHost

noncomputable section

open scoped BigOperators

namespace Cert.ReferenceIdeal.Sample

open Cert.ReferenceIdeal Cert.ReferenceIdeal.Gen Cert.ReferenceIdeal.Read Idealize.ShloMosaic Idealize.ShloMosaic.ValueIdx Cert.BoxMean

/-- The regrouped array's index (b, ch, h, r, w, cl). -/
def ix6 (b : Fin 32) (ch : Fin 1) (h : Fin 8) (r : Fin 128) (w : Fin 8) (cl : Fin 128) : S32x1x8x128x8x128.Idx :=
  fun a => match a with
    | ⟨0, _⟩ => b
    | ⟨1, _⟩ => ch
    | ⟨2, _⟩ => h
    | ⟨3, _⟩ => r
    | ⟨4, _⟩ => w
    | ⟨5, _⟩ => cl

/-- The regrouped image at (b, 0, h, r, w, cl) is the image at pixel (128h + r, 128w + cl) of sample b: the two
    indices have the same row-major position. -/
theorem regroup_apply (X : S32x1x1024x1024.Idx → EReal) (b : Fin 32) (h : Fin 8) (r : Fin 128) (w : Fin 8) (cl : Fin 128) :
    shapeCast S32x1x8x128x8x128 X shapeCasts_S32x1x1024x1024_S32x1x8x128x8x128 (ix6 b 0 h r w cl) = X (px b h r w cl) :=
  shapeCast_apply X _ _ _ (by
    have hn : (⟨5, fun a : Fin 5 => (![32, 1, 8, 128, 8, 128] : Fin 6 → Nat) a.succ⟩ : Shape).numel = 1048576 := by
      simp [Shape.numel, Fin.prod_univ_succ]
    rw [Shape.rowMajor_val_four, Shape.rowMajor_val_succ, Shape.rowMajor_val_five, hn]
    show ((b.val * 1 + 0) * 1024 + (128 * h.val + r.val)) * 1024 + (128 * w.val + cl.val)
      = b.val * 1048576 + ((((0 * 8 + h.val) * 128 + r.val) * 8 + w.val) * 128 + cl.val)
    omega)

/-! ### The sum over a window: axes 3 and 5 of the regrouped array -/

theorem drop_ix6 (b : Fin 32) (ch : Fin 1) (h : Fin 8) (r : Fin 128) (w : Fin 8) (cl : Fin 128) :
    reducesTo_S32x1x8x128x8x128_S32x1x8x8_d3_5.drop (ix6 b ch h r w cl) = ix4 b ch h w := by
  funext a
  match a with
  | ⟨0, _⟩ => rfl
  | ⟨1, _⟩ => rfl
  | ⟨2, _⟩ => rfl
  | ⟨3, _⟩ => rfl

theorem eq_ix6_of_drop (i : S32x1x8x128x8x128.Idx) (j : S32x1x8x8.Idx)
    (hd : reducesTo_S32x1x8x128x8x128_S32x1x8x8_d3_5.drop i = j) :
    i = ix6 (j 0 : Fin 32) (j 1 : Fin 1) (j 2 : Fin 8) (i 3 : Fin 128) (j 3 : Fin 8) (i 5 : Fin 128) := by
  subst hd
  funext a
  match a with
  | ⟨0, _⟩ => rfl
  | ⟨1, _⟩ => rfl
  | ⟨2, _⟩ => rfl
  | ⟨3, _⟩ => rfl
  | ⟨4, _⟩ => rfl
  | ⟨5, _⟩ => rfl

/-- The window's indices, listed by (r, cl). -/
def windowEmb (j : S32x1x8x8.Idx) : Fin 128 × Fin 128 ↪ S32x1x8x128x8x128.Idx :=
  ⟨fun p => ix6 (j 0 : Fin 32) (j 1 : Fin 1) (j 2 : Fin 8) p.1 (j 3 : Fin 8) p.2, fun p q hpq =>
    Prod.ext (show p.1 = q.1 from congrFun hpq 3) (show p.2 = q.2 from congrFun hpq 5)⟩

theorem filter_window (j : S32x1x8x8.Idx) :
    Finset.univ.filter (fun i : S32x1x8x128x8x128.Idx => reducesTo_S32x1x8x128x8x128_S32x1x8x8_d3_5.drop i = j)
      = Finset.univ.map (windowEmb j) := by
  ext i
  simp only [Finset.mem_filter, Finset.mem_univ, true_and, Finset.mem_map, windowEmb, Function.Embedding.coeFn_mk]
  constructor
  · intro hd
    exact ⟨((i 3 : Fin 128), (i 5 : Fin 128)), (eq_ix6_of_drop i j hd).symm⟩
  · rintro ⟨p, rfl⟩
    exact (drop_ix6 (j 0 : Fin 32) (j 1 : Fin 1) (j 2 : Fin 8) p.1 (j 3 : Fin 8) p.2).trans (eq_ix4 j).symm

/-- The reference's sum over a window, from an initial value, as the iterated sum over (r, cl). -/
theorem window_sum (x6 : S32x1x8x128x8x128.Idx → EReal) (init : EReal) (b : Fin 32) (h w : Fin 8) :
    Ideal.hostReduceAdd reducesTo_S32x1x8x128x8x128_S32x1x8x8_d3_5 x6 init (ix4 b (0 : Fin 1) h w)
      = init + ∑ r : Fin 128, ∑ cl : Fin 128, x6 (ix6 b 0 h r w cl) := by
  unfold Ideal.hostReduceAdd
  rw [filter_window, Finset.sum_map, Fintype.sum_prod_type]
  rfl

/-! ### The sum over a sample's 64 windows: axes 1, 2 and 3 of the thumbnail -/

theorem drop_ix4 (b : Fin 32) (ch : Fin 1) (h w : Fin 8) :
    reducesTo_S32x1x8x8_S32_d1_2_3.drop (ix4 b ch h w) = ix1 b := by
  funext a
  match a with
  | ⟨0, _⟩ => rfl

theorem eq_ix4_of_drop (i : S32x1x8x8.Idx) (j : S32.Idx) (hd : reducesTo_S32x1x8x8_S32_d1_2_3.drop i = j) :
    i = ix4 (j 0 : Fin 32) (0 : Fin 1) (i 2 : Fin 8) (i 3 : Fin 8) := by
  subst hd
  funext a
  match a with
  | ⟨0, _⟩ => rfl
  | ⟨1, _⟩ => exact Subsingleton.elim (α := Fin 1) _ _
  | ⟨2, _⟩ => rfl
  | ⟨3, _⟩ => rfl

/-- A sample's windows, listed by (h, w). -/
def sampleEmb (j : S32.Idx) : Fin 8 × Fin 8 ↪ S32x1x8x8.Idx :=
  ⟨fun p => ix4 (j 0 : Fin 32) (0 : Fin 1) p.1 p.2, fun p q hpq =>
    Prod.ext (show p.1 = q.1 from congrFun hpq 2) (show p.2 = q.2 from congrFun hpq 3)⟩

theorem filter_sample (j : S32.Idx) :
    Finset.univ.filter (fun i : S32x1x8x8.Idx => reducesTo_S32x1x8x8_S32_d1_2_3.drop i = j)
      = Finset.univ.map (sampleEmb j) := by
  ext i
  simp only [Finset.mem_filter, Finset.mem_univ, true_and, Finset.mem_map, sampleEmb, Function.Embedding.coeFn_mk]
  constructor
  · intro hd
    exact ⟨((i 2 : Fin 8), (i 3 : Fin 8)), (eq_ix4_of_drop i j hd).symm⟩
  · rintro ⟨p, rfl⟩
    exact (drop_ix4 (j 0 : Fin 32) (0 : Fin 1) p.1 p.2).trans (eq_ix1 j).symm

/-- The reference's sum over a sample's windows, from an initial value, as the iterated sum over (h, w). -/
theorem sample_sum (x4 : S32x1x8x8.Idx → EReal) (init : EReal) (b : Fin 32) :
    Ideal.hostReduceAdd reducesTo_S32x1x8x8_S32_d1_2_3 x4 init (ix1 b)
      = init + ∑ h : Fin 8, ∑ w : Fin 8, x4 (ix4 b (0 : Fin 1) h w) := by
  unfold Ideal.hostReduceAdd
  rw [filter_sample, Finset.sum_map, Fintype.sum_prod_type]
  rfl

/-! ### The per-sample loss -/

/-- One image's thumbnail entry (h, w) of sample b is the one-step window mean. -/
theorem mean_eq (X : S32x1x1024x1024.Idx → EReal) (b : Fin 32) (h w : Fin 8) :
    Ideal.div (Ideal.hostReduceAdd reducesTo_S32x1x8x128x8x128_S32x1x8x8_d3_5
        (shapeCast S32x1x8x128x8x128 X shapeCasts_S32x1x1024x1024_S32x1x8x128x8x128) (Ideal.ofBits .f32 0x00000000#32) (ix4 b (0 : Fin 1) h w))
      (Ideal.ofBits .f32 0x46800000#32) = oneStep X b h w := by
  rw [window_sum]
  unfold oneStep
  simp only [regroup_apply]

/-- The reference's per-sample vector at sample b is the one-step loss of the two images. -/
theorem loss_apply (X Y : S32x1x1024x1024.Idx → EReal) (b : Fin 32) :
    val_main_v10 (F := Ideal) X Y (ix1 b) = oneStepLoss X Y b := by
  show Ideal.hostReduceAdd reducesTo_S32x1x8x8_S32_d1_2_3 (val_main_v9 (F := Ideal) X Y) (Ideal.ofBits .f32 0x00000000#32) (ix1 b) = _
  rw [sample_sum]
  unfold oneStepLoss
  refine congrArg (Ideal.ofBits .f32 0x00000000#32 + ·) (Finset.sum_congr rfl fun h _ => Finset.sum_congr rfl fun w _ => ?_)
  exact congrArg₂ (fun p q : EReal => max (p - q) (-(p - q))) (mean_eq X b h w) (mean_eq Y b h w)

end Cert.ReferenceIdeal.Sample

end
-- ==== Proof.FiniteEntries.lean ====
/-
  What the precondition gives: every entry of both images is a real number.

  The precondition is the conjunction of two "all entries satisfy |x| < +∞" tests. A conjunction of bits is 1
  only if both are; an "all" that is 1 had a 1 at every entry; and an extended real whose absolute value
  max x (-x) lies strictly below +∞ is neither infinity, hence a real.
-/
import proofs.«110878_j89696097010276_1_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Entries

open Cert.Pre_finite_inputs Idealize.ShloMosaic Idealize.ShloMosaic.ValueIdx

variable [Facts]
open Facts

instance : Subsingleton S_.Idx := ⟨fun a b => funext fun d => d.elim0⟩

/-- An extended real whose absolute value is strictly below the word of +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- One image's test: if "all |x| < +∞" is 1 then every entry is a real. -/
theorem all_real (X : FVec Ideal S32x1x1024x1024 .f32)
    (h : Host.reduce IntOp.andi (cmpf .olt (Host.absf X)
        (broadcastInDim S32x1x1024x1024 ![] bcast_S_S32x1x1024x1024 (constant S_ .f32 0x7F800000#32)))
      (constantI S_ 1 1#1) reducesTo_S32x1x1024x1024_S_d0_1_2_3 h_S_ ix0 = 1#1) (i : S32x1x1024x1024.Idx) :
    ∃ r : ℝ, X i = (r : EReal) :=
  real_of_abs_lt_inf (X i) (Host.reduce_andi_all _ _ _ _ _ h i)

/-- The precondition, all ones, makes every entry of both images a real. -/
theorem entries_real (X Y : FVec Ideal S32x1x1024x1024 .f32) (h : fn (F := Ideal) X Y = fun _ => 1#1) :
    (∀ i, ∃ r : ℝ, X i = (r : EReal)) ∧ (∀ i, ∃ r : ℝ, Y i = (r : EReal)) := by
  have h0 := congrFun h ix0
  dsimp only [fn] at h0
  obtain ⟨hX, hY⟩ := IntOp.andi_eq_one.mp h0
  exact ⟨all_real X hX, all_real Y hY⟩

end Cert.Pre_finite_inputs.Entries

end
-- ==== Proof.lean ====
/-
  The thumbnail loss: a pooled kernel against the plain reference, over the extended reals.

  Both programs take two image batches [32, 1, 1024, 1024], average each image over its 8 × 8 grid of 128 × 128
  windows, sum per sample the absolute differences of the two thumbnails, and return the mean over the 32 samples.
  The kernel averages a window in two steps (down the rows times 1/128, along the columns times 1/128), band by band
  with a running per-sample sum; the reference in one (the window's sum over 16384). On images whose entries are all
  real numbers — the precondition — the two means are the same number, hence the two per-sample losses, and the closing
  sum over the samples and the quotient by 32 are the same operations on both sides.

  The modules: Dyadic (the constants' values), BoxMean (the two means and their equality on reals), FiniteEntries (the
  precondition makes every entry real), BandPayload and ScratchPieces (what one grid step computes and leaves),
  RunningSum (the running sums by induction on the grid point, and the output array), KernelResult (the kernel
  program's result), ReferenceSample (the reference's per-sample loss as iterated sums).
-/
import proofs.«110878_j89696097010276_1_alg».proof.Defs
import proofs.«110878_j89696097010276_1_alg».proof.Proof.Gen.Kernel
import proofs.«110878_j89696097010276_1_alg».proof.Proof.Gen.Kernel.Skeleton
import proofs.«110878_j89696097010276_1_alg».proof.Proof.Gen.Kernel.Launch
import proofs.«110878_j89696097010276_1_alg».proof.Proof.Gen.Kernel.Points
import proofs.«110878_j89696097010276_1_alg».proof.Proof.Gen.Kernel.Frame
import proofs.«110878_j89696097010276_1_alg».proof.Proof.Gen.KernelIdeal
import proofs.«110878_j89696097010276_1_alg».proof.Proof.Gen.KernelIdeal.Skeleton
import proofs.«110878_j89696097010276_1_alg».proof.Proof.Gen.KernelIdeal.Launch
import proofs.«110878_j89696097010276_1_alg».proof.Proof.Gen.KernelIdeal.Points
import proofs.«110878_j89696097010276_1_alg».proof.Proof.Gen.KernelIdeal.Frame
import proofs.«110878_j89696097010276_1_alg».proof.Proof.Gen.ReferenceIdeal
import proofs.«110878_j89696097010276_1_alg».proof.Proof.Gen.Pre_finite_inputs
import proofs.«110878_j89696097010276_1_alg».proof.Proof.Gen.ReferenceIdeal.Run
import proofs.«110878_j89696097010276_1_alg».proof.Proof.Gen.ReferenceIdeal.Read
import proofs.«110878_j89696097010276_1_alg».proof.Proof.KernelResult
import proofs.«110878_j89696097010276_1_alg».proof.Proof.ReferenceSample
import proofs.«110878_j89696097010276_1_alg».proof.Proof.FiniteEntries
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program ends at the closing sum and quotient of the vector of two-step losses, the reference at the same
    closing steps of the vector of one-step losses of images that agree; the precondition makes every entry real, on
    which the two losses are equal sample by sample. -/
theorem algebraic : Cert.algebraic_KernelIdeal_ReferenceIdeal := by
  intro m ρ m' ρ' hpre hagree
  refine ⟨fun c => Cert.KernelIdeal.Result.closing (Cert.KernelIdeal.Result.lane0 (Cert.KernelIdeal.Running.outArr m c)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hY⟩ := Cert.Pre_finite_inputs.Entries.entries_real _ _ (hpre c)
  rw [(hagree c).1, (hagree c).2, Cert.ReferenceIdeal.Read.val_main_v12_eq]
  show Cert.KernelIdeal.Result.closing (Cert.ReferenceIdeal.Read.val_main_v10 (F := Ideal) _ _) = _
  refine congrArg Cert.KernelIdeal.Result.closing (funext fun j => ?_)
  obtain ⟨b, rfl⟩ : ∃ b : Fin 32, j = ix1 b := ⟨j 0, eq_ix1 j⟩
  rw [Cert.ReferenceIdeal.Sample.loss_apply, Cert.KernelIdeal.Result.lane0_apply]
  exact (Cert.BoxMean.twoStepLoss_eq_oneStepLoss _ _ hX hY b).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
